-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x128 : Shape := ⟨3, ![64, 128, 128]⟩
abbrev S16384x16384 : Shape := ⟨2, ![16384, 16384]⟩
abbrev S16384 : Shape := ⟨1, ![16384]⟩
abbrev S_ : Shape := ⟨0, ![]⟩

class Facts : Prop where
  bcast_S_S64x128x128 : S_.BroadcastsInDim S64x128x128 (![] : Fin 0 → Fin S64x128x128.rank)
  reducesTo_S64x128x128_S_d0_1_2 : S64x128x128.ReducesTo [0, 1, 2] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S64x128x128 .f32) (main_arg1 : FVec F S16384x16384 .f32) (main_arg2 : FVec F S16384 .f32) : IVec S_ 1 :=
  let main_v0 : FVec F S64x128x128 .f32 := Host.absf main_arg0
  let main_cst : FVec F S_ .f32 := constant S_ .f32 0x7F800000#32
  let main_v1 : FVec F S64x128x128 .f32 := broadcastInDim S64x128x128 ![] bcast_S_S64x128x128 main_cst
  let main_v2 : IVec S64x128x128 1 := cmpf .olt main_v0 main_v1
  let main_c : IVec S_ 1 := constantI S_ 1 1#1
  let main_v3 : IVec S_ 1 := (fun x v => Host.reduce IntOp.andi x v reducesTo_S64x128x128_S_d0_1_2 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S64x128x128 : Shape := ⟨3, ![64, 128, 128]⟩
abbrev S16384x16384 : Shape := ⟨2, ![16384, 16384]⟩
abbrev S16384 : Shape := ⟨1, ![16384]⟩
abbrev S64x16384 : Shape := ⟨2, ![64, 16384]⟩
abbrev S1x16384 : Shape := ⟨2, ![1, 16384]⟩
abbrev S64x2048 : Shape := ⟨2, ![64, 2048]⟩
abbrev S2048x2048 : Shape := ⟨2, ![2048, 2048]⟩
abbrev S1x2048 : Shape := ⟨2, ![1, 2048]⟩

abbrev nBuf : Space → Nat
  | .hbm => 7
  | .vmem => 9
  | .smem => 0
  | _ => 0

abbrev bufTy : (tb : Table) → Fin (tcTables nBuf tb) → BufTy
  | .hbm, ⟨0, _⟩ => ⟨S64x128x128, .f32⟩
  | .hbm, ⟨1, _⟩ => ⟨S16384x16384, .f32⟩
  | .hbm, ⟨2, _⟩ => ⟨S16384, .f32⟩
  | .hbm, ⟨3, _⟩ => ⟨S64x16384, .f32⟩
  | .hbm, ⟨4, _⟩ => ⟨S1x16384, .f32⟩
  | .hbm, ⟨5, _⟩ => ⟨S64x16384, .f32⟩
  | .hbm, ⟨6, _⟩ => ⟨S64x128x128, .f32⟩
  | .local _ .vmem, ⟨0, _⟩ => ⟨S64x2048, .f32⟩
  | .local _ .vmem, ⟨1, _⟩ => ⟨S64x2048, .f32⟩
  | .local _ .vmem, ⟨2, _⟩ => ⟨S2048x2048, .f32⟩
  | .local _ .vmem, ⟨3, _⟩ => ⟨S2048x2048, .f32⟩
  | .local _ .vmem, ⟨4, _⟩ => ⟨S1x2048, .f32⟩
  | .local _ .vmem, ⟨5, _⟩ => ⟨S1x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | _, _ => ⟨S64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S64x128x128_S64x16384 : S64x128x128.ShapeCasts S64x16384
  shapeCasts_S16384_S1x16384 : S16384.ShapeCasts S1x16384
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  shapeCasts_S64x16384_S64x128x128 : S64x16384.ShapeCasts S64x128x128
  dot_S64x2048_S2048x2048_S64x2048_1_1_0_0_n_n_wf : DotDims.WF S64x2048 S2048x2048 S64x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x16384.size a
  hwx0_0 : ∀ i : grid0.Coords, EltTy.bits .f32 = 32 ∨ (Rect.block (s := S64x16384) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S16384x16384.size a
  hwx0_1 : ∀ i : grid0.Coords, EltTy.bits .f32 = 32 ∨ (Rect.block (s := S16384x16384) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x16384.size a
  hwx0_3 : ∀ i : grid0.Coords, EltTy.bits .f32 = 32 ∨ (Rect.block (s := S64x16384) S64x2048.size (cc0_transform_3 i) (hinb0_3 i)).WholeWords (EltTy.packing .f32)

variable [Facts₀]

def dot_S64x2048_S2048x2048_S64x2048_1_1_0_0_n_n : DotDims S64x2048 S2048x2048 S64x2048 where
  lhsContracting := [1]
  rhsContracting := [1]
  lhsNonContracting := [0]
  rhsNonContracting := [0]
  lhsBatch := []
  rhsBatch := []
  wf := dot_S64x2048_S2048x2048_S64x2048_1_1_0_0_n_n_wf

abbrev win0_0 : Pipeline.Window sig grid0 :=
  Pipeline.Window.ofSpec (Memref.whole main_v0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x128x128 : Shape := ⟨3, ![64, 128, 128]⟩
abbrev S16384x16384 : Shape := ⟨2, ![16384, 16384]⟩
abbrev S16384 : Shape := ⟨1, ![16384]⟩
abbrev S64x16384 : Shape := ⟨2, ![64, 16384]⟩
abbrev S1x16384 : Shape := ⟨2, ![1, 16384]⟩

abbrev nBuf : Space → Nat
  | .hbm => 9
  | .vmem => 0
  | .smem => 0
  | _ => 0

abbrev bufTy : (tb : Table) → Fin (tcTables nBuf tb) → BufTy
  | .hbm, ⟨0, _⟩ => ⟨S64x128x128, .f32⟩
  | .hbm, ⟨1, _⟩ => ⟨S16384x16384, .f32⟩
  | .hbm, ⟨2, _⟩ => ⟨S16384, .f32⟩
  | .hbm, ⟨3, _⟩ => ⟨S64x16384, .f32⟩
  | .hbm, ⟨4, _⟩ => ⟨S64x16384, .f32⟩
  | .hbm, ⟨5, _⟩ => ⟨S1x16384, .f32⟩
  | .hbm, ⟨6, _⟩ => ⟨S64x16384, .f32⟩
  | .hbm, ⟨7, _⟩ => ⟨S64x16384, .f32⟩
  | .hbm, ⟨8, _⟩ => ⟨S64x128x128, .f32⟩
  | _, _ => ⟨S64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S64x128x128_S64x16384 : S64x128x128.ShapeCasts S64x16384
  bcast_S16384_S1x16384_1 : S16384.BroadcastsInDim S1x16384 (![1] : Fin 1 → Fin S1x16384.rank)
  bcast_S1x16384_S64x16384_0_1 : S1x16384.BroadcastsInDim S64x16384 (![0, 1] : Fin 2 → Fin S64x16384.rank)
  shapeCasts_S64x16384_S64x128x128 : S64x16384.ShapeCasts S64x128x128
  dot_S64x16384_S16384x16384_S64x16384_1_1_0_0_n_n_wf : DotDims.WF S64x16384 S16384x16384 S64x16384 [1] [1] [0] [0] [] []

variable [Facts₀]

def dot_S64x16384_S16384x16384_S64x16384_1_1_0_0_n_n : DotDims S64x16384 S16384x16384 S64x16384 where
  lhsContracting := [1]
  rhsContracting := [1]
  lhsNonContracting := [0]
  rhsNonContracting := [0]
  lhsBatch := []
  rhsBatch := []
  wf := dot_S64x16384_S16384x16384_S64x16384_1_1_0_0_n_n_wf

class Facts : Prop extends Facts₀ where

variable [Facts]
-- ==== Proof.DenseBlocks.lean ====
/-
  The mathematics of a dense layer computed eight column blocks at a time.

  The layer sends a row `x b` of 16384 numbers to `out b o = (∑ i, x b i · w o i) + bias o`. The 16384 columns `i` are
  cut into eight consecutive blocks of 2048, block `k` holding the columns `2048·k + j` for `j < 2048`. Addition of
  extended reals is commutative and associative, so the whole sum is the sum of the eight blocks' partial sums; no
  finiteness of the entries is used anywhere.
-/
import Idealize.ShloMosaic.Lib.ValueIdx

noncomputable section

open scoped BigOperators

namespace Cert.DenseBlocks

open Idealize.ShloMosaic Idealize.ShloMosaic.ValueIdx

/-- Column `j` of block `k` among 16384 columns. The block number is read modulo 8, so every natural number names a
    block and no bound has to be carried; for `k < 8` this is column `2048·k + j`. -/
def col (k : ℕ) (j : Fin 2048) : Fin 16384 :=
  ⟨2048 * (k % 8) + j.val, by have := j.isLt; have := Nat.mod_lt k (show 0 < 8 by norm_num); omega⟩

theorem col_val (k : ℕ) (j : Fin 2048) : (col k j).val = 2048 * (k % 8) + j.val := rfl

/-- A sum over the first `2048·n` naturals, taken 2048 at a time: by induction on the number of blocks, each step
    splitting off the last 2048 terms. -/
theorem sum_range_blocks {M : Type*} [AddCommMonoid M] (f : ℕ → M) (n : ℕ) :
    ∑ i ∈ Finset.range (2048 * n), f i = ∑ k ∈ Finset.range n, ∑ j ∈ Finset.range 2048, f (2048 * k + j) := by
  induction n with
  | zero => rw [Nat.mul_zero, Finset.range_zero, Finset.sum_empty, Finset.sum_empty]
  | succ n ih =>
    rw [Nat.mul_succ, Finset.sum_range_add, ih]
    exact (Finset.sum_range_succ (fun k => ∑ j ∈ Finset.range 2048, f (2048 * k + j)) n).symm

/-- A sum over all 16384 columns is the sum over the eight blocks of each block's sum over its 2048 columns: the pairs
    (block, column inside the block) are exactly the columns, each once. -/
theorem sum_blocks {M : Type*} [AddCommMonoid M] (g : Fin 16384 → M) :
    ∑ i : Fin 16384, g i = ∑ k ∈ Finset.range 8, ∑ j : Fin 2048, g (col k j) := by
  let f : ℕ → M := fun i => if h : i < 16384 then g ⟨i, h⟩ else 0
  have hf : ∀ i : Fin 16384, f i.val = g i := fun i => dif_pos i.isLt
  have h1 : ∑ i : Fin 16384, g i = ∑ i ∈ Finset.range 16384, f i :=
    (Finset.sum_congr rfl fun i _ => (hf i).symm).trans (Finset.sum_range f).symm
  have h2 : ∑ i ∈ Finset.range 16384, f i = ∑ i ∈ Finset.range (2048 * 8), f i :=
    congrArg (fun n => ∑ i ∈ Finset.range n, f i) (by norm_num : (16384 : ℕ) = 2048 * 8)
  refine h1.trans (h2.trans ((sum_range_blocks f 8).trans ?_))
  refine Finset.sum_congr rfl fun k hk => ?_
  have hk' : k < 8 := Finset.mem_range.mp hk
  rw [Finset.sum_range]
  refine Finset.sum_congr rfl fun j _ => ?_
  have hlt : 2048 * k + j.val < 16384 := by have := j.isLt; omega
  have e : f (2048 * k + j.val) = g ⟨2048 * k + j.val, hlt⟩ := dif_pos hlt
  rw [e]
  exact congrArg g (Fin.ext (by show 2048 * k + j.val = 2048 * (k % 8) + j.val; rw [Nat.mod_eq_of_lt hk']))

/-- The dense layer on flattened rows, entry by entry: row `b` of `x` against row `o` of `w`, plus `bias o`. -/
def dense (x : FVec Ideal ⟨2, ![64, 16384]⟩ .f32) (w : FVec Ideal ⟨2, ![16384, 16384]⟩ .f32)
    (bias : FVec Ideal ⟨1, ![16384]⟩ .f32) : FVec Ideal ⟨2, ![64, 16384]⟩ .f32 :=
  fun y => (∑ i : Fin 16384, x (ix2 (y 0) i) * w (ix2 (y 1) i)) + bias (ix1 (y 1))

/-- What column block `k` contributes to entry `(b, o)`: the 2048 products over that block's columns. -/
def blockTerm (x : FVec Ideal ⟨2, ![64, 16384]⟩ .f32) (w : FVec Ideal ⟨2, ![16384, 16384]⟩ .f32)
    (k : ℕ) (b : Fin 64) (o : Fin 16384) : EReal :=
  ∑ j : Fin 2048, x (ix2 b (col k j)) * w (ix2 o (col k j))

/-- An entry of the layer is the eight blocks' contributions added up, plus the bias. -/
theorem dense_eq_blocks (x : FVec Ideal ⟨2, ![64, 16384]⟩ .f32) (w : FVec Ideal ⟨2, ![16384, 16384]⟩ .f32)
    (bias : FVec Ideal ⟨1, ![16384]⟩ .f32) (b : Fin 64) (o : Fin 16384) :
    dense x w bias (ix2 b o) = (∑ k ∈ Finset.range 8, blockTerm x w k b o) + bias (ix1 o) := by
  show (∑ i : Fin 16384, x (ix2 b i) * w (ix2 o i)) + bias (ix1 o) = _
  rw [sum_blocks]
  rfl

/-- The running sum after the first block: nothing plus block 0. -/
theorem partial_first (d : ℕ → EReal) : (0 : EReal) + d 0 = ∑ k ∈ Finset.range (0 + 1), d k := by
  rw [Finset.sum_range_one, zero_add]

/-- The running sum after one more block. -/
theorem partial_next (d : ℕ → EReal) (n : ℕ) :
    (∑ k ∈ Finset.range (n + 1), d k) + d (n + 1) = ∑ k ∈ Finset.range (n + 1 + 1), d k :=
  (Finset.sum_range_succ d (n + 1)).symm

end Cert.DenseBlocks

end
-- ==== Proof.Payloads.lean ====
/-
  The three values the kernel body stores, each read at one entry `(b, r)` of a 64 × 2048 block, over the extended
  reals (where a change of float format is the identity and a matrix product into a zero accumulator is the plain sum
  of products):

    the reset stores `0`;
    the accumulation stores `acc (b, r) + ∑ j < 2048, a (b, j) · w (r, j)` — the left operand's row `b` against the
      right operand's ROW `r` (both operands are contracted along their second axis);
    the last step stores `acc (b, r) + bias (0, r)`, the bias row repeated down the 64 rows.
-/
import proofs.«156693_j20624432955404_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Entries

open Idealize.ShloMosaic Idealize.ShloMosaic.ValueIdx Cert.KernelIdeal Cert.KernelIdeal.Gen

/-- The reset block is zero everywhere. -/
theorem reset_apply (y : S64x2048.Idx) : (k0_pay1 (F := Ideal)) y = 0 := by
  unfold k0_pay1
  rw [shapeCast_self]
  exact Ideal.ofBits_zero_f32

/-! The matrix product's operand indices: at output entry `i` and contraction position `q`, the left operand is read
    at `(i 0, q)` and the right operand at `(i 1, q)`. -/

theorem lhs_row (i : S64x2048.Idx) (q : dot_S64x2048_S2048x2048_S64x2048_1_1_0_0_n_n.contr.Idx) :
    (dot_S64x2048_S2048x2048_S64x2048_1_1_0_0_n_n.lhsIdx i q 0).val = (i 0).val := by
  unfold DotDims.lhsIdx
  rw [dif_neg (show ¬(0 : Fin S64x2048.rank) ∈ dot_S64x2048_S2048x2048_S64x2048_1_1_0_0_n_n.lhsBatch by decide), dif_pos (show (0 : Fin S64x2048.rank) ∈ dot_S64x2048_S2048x2048_S64x2048_1_1_0_0_n_n.lhsNonContracting by decide)]
  rfl
theorem lhs_col (i : S64x2048.Idx) (q : dot_S64x2048_S2048x2048_S64x2048_1_1_0_0_n_n.contr.Idx) :
    (dot_S64x2048_S2048x2048_S64x2048_1_1_0_0_n_n.lhsIdx i q 1).val = (q ⟨0, by decide⟩).val :=
  dot_S64x2048_S2048x2048_S64x2048_1_1_0_0_n_n.lhsIdx_val_of_single rfl i q
theorem rhs_row (i : S64x2048.Idx) (q : dot_S64x2048_S2048x2048_S64x2048_1_1_0_0_n_n.contr.Idx) :
    (dot_S64x2048_S2048x2048_S64x2048_1_1_0_0_n_n.rhsIdx i q 0).val = (i 1).val := by
  unfold DotDims.rhsIdx
  rw [dif_neg (show ¬(0 : Fin S2048x2048.rank) ∈ dot_S64x2048_S2048x2048_S64x2048_1_1_0_0_n_n.rhsBatch by decide), dif_pos (show (0 : Fin S2048x2048.rank) ∈ dot_S64x2048_S2048x2048_S64x2048_1_1_0_0_n_n.rhsNonContracting by decide)]
  rfl
theorem rhs_col (i : S64x2048.Idx) (q : dot_S64x2048_S2048x2048_S64x2048_1_1_0_0_n_n.contr.Idx) :
    (dot_S64x2048_S2048x2048_S64x2048_1_1_0_0_n_n.rhsIdx i q 1).val = (q ⟨0, by decide⟩).val :=
  dot_S64x2048_S2048x2048_S64x2048_1_1_0_0_n_n.rhsIdx_val_of_single rfl i q

/-- The product of a 64 × 2048 block with a 2048 × 2048 block, both contracted along their second axis, into the zero
    accumulator: entry `(b, r)` is the sum over `j` of `a (b, j) · w (r, j)`. -/
theorem product_apply (a : FVec Ideal S64x2048 .bf16) (w : FVec Ideal S2048x2048 .bf16) (b : Fin 64) (r : Fin 2048) :
    matmul dot_S64x2048_S2048x2048_S64x2048_1_1_0_0_n_n none a w (constant (F := Ideal) S64x2048 .f32 0x00000000#32) (ix2 b r)
      = ∑ j : Fin 2048, a (ix2 b j) * w (ix2 r j) := by
  refine (Ideal.matmul_constant_zero_apply dot_S64x2048_S2048x2048_S64x2048_1_1_0_0_n_n none a w (ix2 b r)).trans ?_
  rw [← Equiv.sum_comp (contrEquiv1 dot_S64x2048_S2048x2048_S64x2048_1_1_0_0_n_n 2048 rfl rfl).symm]
  refine Finset.sum_congr rfl fun k _ => ?_
  have hk := contrEquiv1_symm_val dot_S64x2048_S2048x2048_S64x2048_1_1_0_0_n_n 2048 rfl rfl k
  have el : dot_S64x2048_S2048x2048_S64x2048_1_1_0_0_n_n.lhsIdx (ix2 b r) ((contrEquiv1 dot_S64x2048_S2048x2048_S64x2048_1_1_0_0_n_n 2048 rfl rfl).symm k) = ix2 b k := funext fun ax => Fin.ext (by
    match ax with
    | ⟨0, _⟩ => exact lhs_row _ _
    | ⟨1, _⟩ => exact (lhs_col _ _).trans hk)
  have er : dot_S64x2048_S2048x2048_S64x2048_1_1_0_0_n_n.rhsIdx (ix2 b r) ((contrEquiv1 dot_S64x2048_S2048x2048_S64x2048_1_1_0_0_n_n 2048 rfl rfl).symm k) = ix2 r k := funext fun ax => Fin.ext (by
    match ax with
    | ⟨0, _⟩ => exact rhs_row _ _
    | ⟨1, _⟩ => exact (rhs_col _ _).trans hk)
  rw [el, er]

/-- The accumulation: what was there plus the block product. -/
theorem accumulate_apply (a : Vec Ideal S64x2048 .f32) (w : Vec Ideal S2048x2048 .f32) (acc : Vec Ideal S64x2048 .f32)
    (b : Fin 64) (r : Fin 2048) :
    k0_pay2 (F := Ideal) a w acc (ix2 b r) = acc (ix2 b r) + ∑ j : Fin 2048, a (ix2 b j) * w (ix2 r j) := by
  unfold k0_pay2
  rw [shapeCast_self, shapeCast_self]
  show acc (ix2 b r) + matmul dot_S64x2048_S2048x2048_S64x2048_1_1_0_0_n_n none _ _ (constant (F := Ideal) S64x2048 .f32 0x00000000#32) (ix2 b r) = _
  rw [product_apply]
  rfl

/-- The last step: the accumulator plus the bias row. -/
theorem finish_apply (acc : Vec Ideal S64x2048 .f32) (bias : Vec Ideal S1x2048 .f32) (b : Fin 64) (r : Fin 2048) :
    k0_pay3 (F := Ideal) acc bias (ix2 b r) = acc (ix2 b r) + bias (ix2 (0 : Fin 1) r) := by
  unfold k0_pay3
  rw [shapeCast_self]
  show acc (ix2 b r) + broadcastTo S64x2048 bias broadcasts_S1x2048_S64x2048 (ix2 b r) = _
  rw [broadcastTo_1b_ab_apply]

end Cert.KernelIdeal.Entries

end
-- ==== Proof.Pieces.lean ====
/-
  What one run of the kernel body leaves behind, case by case, as values of what it was handed (any float instance).

  The body meets three situations along the reduction axis of the grid. At the first column block it clears the
  accumulator and then adds that block's product: the accumulator ends at `accumulate a w 0`. At a middle column block
  it adds the block's product to what the accumulator held: `accumulate a w acc`. At the last column block it does the
  same and then writes `finish (accumulate a w acc) bias` to the output block. Each fact is read off the stores the run
  made: a store covering the whole buffer decides its contents, and a load after such a store reads the stored value.
-/
import proofs.«156693_j20624432955404_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

/-- Every load and store of the body starts at the block's origin. -/
theorem origin : (![0, 0] : Fin 2 → Nat) = fun _ => 0 := funext fun a => by fin_cases a <;> rfl

/-- First column block: the accumulator is cleared, then holds the block's product added to the cleared value. -/
theorem scratch_first (c : Dev nD) (i : grid0.Coords) (arg2 : Memref sig .tc .vmem S64x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond0_0 i) (hc1 : ¬cond0_1 i)
    (x0 : Vec F S64x2048 .f32) (x1 : Vec F S2048x2048 .f32) (x2 : Vec F S1x2048 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S64x2048) origin, View.readCov_unit_zero (S := S64x2048) _ origin]
  simp only [View.readAt_eq_ld, harg2.read_unread, harg3.read_unread, View.ld_unit_zero (S := S64x2048) origin,
    View.ld_unit_zero (S := S2048x2048) origin]

/-- Middle column block: the accumulator holds the block's product added to what it held. -/
theorem scratch_middle (c : Dev nD) (i : grid0.Coords) (arg2 : Memref sig .tc .vmem S64x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond0_0 i) (hc1 : ¬cond0_1 i)
    (x0 : Vec F S64x2048 .f32) (x1 : Vec F S2048x2048 .f32) (x2 : Vec F S1x2048 .f32) (xs0 : Vec F S64x2048 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero origin]
  simp only [View.readAt_eq_ld, harg2.read_unread, harg3.read_unread, harg6.read_unread,
    View.ld_unit_zero (S := S64x2048) origin, View.ld_unit_zero (S := S2048x2048) origin]

/-- Last column block, the accumulator: as at a middle block. -/
theorem scratch_last (c : Dev nD) (i : grid0.Coords) (arg2 : Memref sig .tc .vmem S64x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond0_0 i) (hc1 : cond0_1 i)
    (x0 : Vec F S64x2048 .f32) (x1 : Vec F S2048x2048 .f32) (x2 : Vec F S1x2048 .f32) (xs0 : Vec F S64x2048 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero origin]
  simp only [View.readAt_eq_ld, harg2.read_unread, harg3.read_unread, harg6.read_unread,
    View.ld_unit_zero (S := S64x2048) origin, View.ld_unit_zero (S := S2048x2048) origin]

/-- Last column block, the output block: the finished accumulator plus the bias row. -/
theorem output_last (c : Dev nD) (i : grid0.Coords) (arg2 : Memref sig .tc .vmem S64x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond0_0 i) (hc1 : cond0_1 i)
    (x0 : Vec F S64x2048 .f32) (x1 : Vec F S2048x2048 .f32) (x2 : Vec F S1x2048 .f32) (xs0 : Vec F S64x2048 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero origin]
  simp only [View.readAt_eq_ld, harg2.read_unread, harg3.read_unread, harg4.read_unread, harg6.read_unread,
    View.readCov_unit_zero (S := S64x2048) _ origin, View.ld_unit_zero (S := S64x2048) origin,
    View.ld_unit_zero (S := S2048x2048) origin, View.ld_unit_zero (S := S1x2048) origin]

end Cert.KernelIdeal.Pieces

end
-- ==== Proof.Tiles.lean ====
/-
  Where the grid's 64 points sit, and what each leaves behind, over the extended reals.

  Point `t` works on output-feature tile `n = t / 8` and column block `k = t % 8`. Its three input blocks are: rows of
  the flattened input at columns `2048·k + j`; rows `2048·n + r` of the weight matrix at the same columns; the bias
  row at columns `2048·n + r`. Reading the body's three stored values at an entry `(b, r)`:

    k = 0      the accumulator ends at `0 + (block k's contribution to entry (b, 2048·n + r))`;
    0 < k      it ends at what point `t - 1` left plus block k's contribution;
    k = 7      and the output block gets that sum plus `bias (2048·n + r)`.

  So after point `t` the accumulator holds the contributions of blocks `0 … k` added up: an induction along the points,
  each step one more term of a sum over an initial segment.
-/
import proofs.«156693_j20624432955404_1_alg».proof.Proof.Gen.KernelIdeal.Frame
import proofs.«156693_j20624432955404_1_alg».proof.Proof.DenseBlocks
import proofs.«156693_j20624432955404_1_alg».proof.Proof.Payloads
import proofs.«156693_j20624432955404_1_alg».proof.Proof.Pieces
import Idealize.ShloMosaic.Lib.Pipeline.Value

noncomputable section

open scoped BigOperators

namespace Cert.KernelIdeal.Tiles

open Idealize.ShloMosaic Idealize.ShloMosaic.TcCoe Idealize.ShloMosaic.ValueIdx Idealize.SL.Sem
open Cert.KernelIdeal Cert.KernelIdeal.Gen Cert.DenseBlocks Cert.KernelIdeal.Entries Cert.KernelIdeal.Pieces

variable (m : (ℓ : Loc nD τ sig) → Buf (Elt Ideal) ℓ)

/-- The three arrays the region reads, as it finds them: the flattened input rows, the weight matrix, the bias row. -/
abbrev rows (c : Dev nD) : FVec Ideal S64x16384 .f32 := V m c main_v0
abbrev weights (c : Dev nD) : FVec Ideal S16384x16384 .f32 := V m c main_arg1
abbrev biasRow (c : Dev nD) : FVec Ideal S1x16384 .f32 := V m c main_v1

/-- Their blocks at point `t`. -/
abbrev rowsBlk (c : Dev nD) (t : Fin cfg0.N) : Vec Ideal S64x2048 .f32 := iblk m c 0 t
abbrev weightsBlk (c : Dev nD) (t : Fin cfg0.N) : Vec Ideal S2048x2048 .f32 := iblk m c 1 t
abbrev biasBlk (c : Dev nD) (t : Fin cfg0.N) : Vec Ideal S1x2048 .f32 := iblk m c 2 t

/-- Which block of its array each window is on at point `t`: tile `t / 8` along the output features, block `t % 8`
    along the columns. Decided over the 64 points. -/
theorem where_blocks : ∀ t : Fin cfg0.N,
    win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 2) = 0 ∧ win0_2.index t (1 : Fin 2) = t.val / 8
    ∧ win0_3.index t (0 : Fin 2) = 0 ∧ win0_3.index t (1 : Fin 2) = t.val / 8 :=
  (by decide +kernel : ∀ t : Fin grid0.N, _)

theorem point_lt (t : Fin cfg0.N) : t.val < 64 := lt_of_lt_of_eq t.isLt (show cfg0.N = 64 from N_0)

/-- The input rows' block: all 64 rows, columns of block `t % 8`. -/
theorem rowsBlk_apply (c : Dev nD) (t : Fin cfg0.N) (b : Fin 64) (j : Fin 2048) :
    rowsBlk m c t (ix2 b j) = rows m c (ix2 b (col (t.val % 8) j)) := by
  obtain ⟨e0, e1, -⟩ := where_blocks t
  show V m c main_v0 (((cfg0.win 0).blk t).view.emb (ix2 b j)) = V m c main_v0 (ix2 b (col (t.val % 8) j))
  refine congrArg (V m c main_v0) (funext fun a => Fin.ext ?_)
  match a with
  | ⟨0, _⟩ => show win0_0.index t (0 : Fin 2) * 64 + 1 * b.val = b.val; omega
  | ⟨1, _⟩ => show win0_0.index t (1 : Fin 2) * 2048 + 1 * j.val = 2048 * (t.val % 8 % 8) + j.val; omega

/-- The weights' block: rows of tile `t / 8`, columns of block `t % 8`. -/
theorem weightsBlk_apply (c : Dev nD) (t : Fin cfg0.N) (r : Fin 2048) (j : Fin 2048) :
    weightsBlk m c t (ix2 r j) = weights m c (ix2 (col (t.val / 8) r) (col (t.val % 8) j)) := by
  obtain ⟨-, -, e2, e3, -⟩ := where_blocks t
  have ht := point_lt t
  show V m c main_arg1 (((cfg0.win 1).blk t).view.emb (ix2 r j)) = V m c main_arg1 (ix2 (col (t.val / 8) r) (col (t.val % 8) j))
  refine congrArg (V m c main_arg1) (funext fun a => Fin.ext ?_)
  match a with
  | ⟨0, _⟩ => show win0_1.index t (0 : Fin 2) * 2048 + 1 * r.val = 2048 * (t.val / 8 % 8) + r.val; omega
  | ⟨1, _⟩ => show win0_1.index t (1 : Fin 2) * 2048 + 1 * j.val = 2048 * (t.val % 8 % 8) + j.val; omega

/-- The bias row's block: columns of tile `t / 8`. -/
theorem biasBlk_apply (c : Dev nD) (t : Fin cfg0.N) (r : Fin 2048) :
    biasBlk m c t (ix2 (0 : Fin 1) r) = biasRow m c (ix2 (0 : Fin 1) (col (t.val / 8) r)) := by
  obtain ⟨-, -, -, -, e4, e5, -⟩ := where_blocks t
  have ht := point_lt t
  show V m c main_v1 (((cfg0.win 2).blk t).view.emb (ix2 (0 : Fin 1) r)) = V m c main_v1 (ix2 (0 : Fin 1) (col (t.val / 8) r))
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 2048 + 1 * r.val = 2048 * (t.val / 8 % 8) + r.val; omega

/-- The block product at point `t`, entry `(b, r)`, is column block `t % 8`'s contribution to entry
    `(b, 2048·(t / 8) + r)` of the layer. -/
theorem product_eq (c : Dev nD) (t : Fin cfg0.N) (b : Fin 64) (r : Fin 2048) :
    ∑ j : Fin 2048, rowsBlk m c t (ix2 b j) * weightsBlk m c t (ix2 r j)
      = blockTerm (rows m c) (weights m c) (t.val % 8) b (col (t.val / 8) r) :=
  Finset.sum_congr rfl fun j _ => by rw [rowsBlk_apply, weightsBlk_apply]

/-- At a first column block the accumulator ends at nothing plus the block product. -/
theorem acc_first (c : Dev nD) (t : Fin cfg0.N) (h0 : t.val % 8 = 0) (h1 : ¬t.val % 8 = 7) (b : Fin 64) (r : Fin 2048) :
    (outsAt0 m c t.val t.isLt).2 (ix2 b r) = 0 + ∑ j : Fin 2048, rowsBlk m c t (ix2 b j) * weightsBlk m c t (ix2 r j) := by
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 b r)).trans ?_
  refine (accumulate_apply (rowsBlk m c t) (weightsBlk m c t) (k0_pay1 (F := Ideal)) b r).trans ?_
  rw [reset_apply]

/-- At a later column block it ends at what the point before left plus the block product. -/
theorem acc_later (c : Dev nD) (t : Fin cfg0.N) (h0 : ¬t.val % 8 = 0) (b : Fin 64) (r : Fin 2048) :
    (outsAt0 m c t.val t.isLt).2 (ix2 b r)
      = (outsAt0 m c (t.val - 1) (Nat.lt_of_le_of_lt (Nat.sub_le _ _) t.isLt)).2 (ix2 b r) + ∑ j : Fin 2048, rowsBlk m c t (ix2 b j) * weightsBlk m c t (ix2 r j) := by
  by_cases h1 : t.val % 8 = 7
  · rw [outsAt0_C m c t h0 h1]
    dsimp only
    refine (congrFun (scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 b r)).trans ?_
    exact accumulate_apply (rowsBlk m c t) (weightsBlk m c t) (outsAt0 m c (t.val - 1) (Nat.lt_of_le_of_lt (Nat.sub_le _ _) t.isLt)).2 b r
  · rw [outsAt0_B m c t h0 h1]
    dsimp only
    refine (congrFun (scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 b r)).trans ?_
    exact accumulate_apply (rowsBlk m c t) (weightsBlk m c t) (outsAt0 m c (t.val - 1) (Nat.lt_of_le_of_lt (Nat.sub_le _ _) t.isLt)).2 b r

/-- At a last column block the output block gets the finished accumulator plus the bias row. -/
theorem out_last (c : Dev nD) (t : Fin cfg0.N) (h0 : ¬t.val % 8 = 0) (h1 : t.val % 8 = 7) (b : Fin 64) (r : Fin 2048) :
    (outsAt0 m c t.val t.isLt).1 (ix2 b r)
      = ((outsAt0 m c (t.val - 1) (Nat.lt_of_le_of_lt (Nat.sub_le _ _) t.isLt)).2 (ix2 b r) + ∑ j : Fin 2048, rowsBlk m c t (ix2 b j) * weightsBlk m c t (ix2 r j))
        + biasBlk m c t (ix2 (0 : Fin 1) r) := by
  rw [outsAt0_C m c t h0 h1]
  dsimp only
  refine (congrFun (output_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 b r)).trans ?_
  refine (finish_apply (k0_pay2 (F := Ideal) (rowsBlk m c t) (weightsBlk m c t) (outsAt0 m c (t.val - 1) (Nat.lt_of_le_of_lt (Nat.sub_le _ _) t.isLt)).2) (biasBlk m c t) b r).trans ?_
  rw [accumulate_apply]

/-- THE RUNNING SUM. After point `n` the accumulator's entry `(b, r)` is the contributions of column blocks
    `0 … n % 8` to entry `(b, 2048·(n / 8) + r)`, added up. By induction along the points: a first block starts the
    sum, a later block adds one term to what the point before (same tile, one block earlier) left. -/
theorem acc_eq (c : Dev nD) (n : ℕ) : ∀ (h : n < cfg0.N) (b : Fin 64) (r : Fin 2048),
    (outsAt0 m c n h).2 (ix2 b r)
      = ∑ k ∈ Finset.range (n % 8 + 1), blockTerm (rows m c) (weights m c) k b (col (n / 8) r) := by
  induction n using Nat.strong_induction_on with
  | _ n ih =>
    intro h b r
    have hN : n < 64 := lt_of_lt_of_eq h (show cfg0.N = 64 from N_0)
    by_cases h0 : n % 8 = 0
    · have h1 : ¬n % 8 = 7 := by omega
      refine (acc_first m c ⟨n, h⟩ h0 h1 b r).trans ?_
      rw [product_eq]
      show 0 + blockTerm (rows m c) (weights m c) (n % 8) b (col (n / 8) r) = _
      rw [h0]
      exact partial_first fun k => blockTerm (rows m c) (weights m c) k b (col (n / 8) r)
    · refine (acc_later m c ⟨n, h⟩ h0 b r).trans ?_
      rw [product_eq]
      show (outsAt0 m c (n - 1) _).2 (ix2 b r) + blockTerm (rows m c) (weights m c) (n % 8) b (col (n / 8) r) = _
      rw [ih (n - 1) (by omega) (by omega) b r]
      have e1 : (n - 1) / 8 = n / 8 := by omega
      have e2 : (n - 1) % 8 + 1 = n % 8 := by omega
      rw [e1, e2]
      exact (Finset.sum_range_succ (fun k => blockTerm (rows m c) (weights m c) k b (col (n / 8) r)) (n % 8)).symm

/-- So at a last column block the output block's entry `(b, r)` is the layer's entry `(b, 2048·(t / 8) + r)`, for
    any bias vector that the bias row spells out. -/
theorem out_eq (c : Dev nD) (bias : FVec Ideal S16384 .f32) (hbias : ∀ o : Fin 16384, biasRow m c (ix2 (0 : Fin 1) o) = bias (ix1 o))
    (t : Fin cfg0.N) (h1 : t.val % 8 = 7) (b : Fin 64) (r : Fin 2048) :
    (outsAt0 m c t.val t.isLt).1 (ix2 b r) = dense (rows m c) (weights m c) bias (ix2 b (col (t.val / 8) r)) := by
  have ht := point_lt t
  have h0 : ¬t.val % 8 = 0 := by omega
  rw [out_last m c t h0 h1 b r, ← acc_later m c t h0 b r, acc_eq m c t.val t.isLt b r, biasBlk_apply, hbias,
    dense_eq_blocks, h1]

end Cert.KernelIdeal.Tiles

end
-- ==== Proof.Layer.lean ====
/-
  The whole layer on the input as given: each of the 64 examples' 128 × 128 grid is flattened to a row of 16384
  numbers (row-major), the dense layer is applied to the rows, and each result row is folded back into a 128 × 128 grid.
-/
import proofs.«156693_j20624432955404_1_alg».proof.Proof.DenseBlocks
import Idealize.ShloMosaic.Lib.Pipeline.Value

noncomputable section

namespace Cert.DenseBlocks

open Idealize.ShloMosaic

/-- 64 · 128 · 128 numbers are 64 rows of 16384, -/
theorem flatten_ok : (⟨3, ![64, 128, 128]⟩ : Shape).ShapeCasts ⟨2, ![64, 16384]⟩ := by decide
/-- and back. -/
theorem unflatten_ok : (⟨2, ![64, 16384]⟩ : Shape).ShapeCasts ⟨3, ![64, 128, 128]⟩ := by decide

/-- Flatten, apply the dense layer, fold back. -/
def layer (x : FVec Ideal ⟨3, ![64, 128, 128]⟩ .f32) (w : FVec Ideal ⟨2, ![16384, 16384]⟩ .f32)
    (bias : FVec Ideal ⟨1, ![16384]⟩ .f32) : FVec Ideal ⟨3, ![64, 128, 128]⟩ .f32 :=
  shapeCast ⟨3, ![64, 128, 128]⟩ (dense (shapeCast ⟨2, ![64, 16384]⟩ x flatten_ok) w bias) unflatten_ok

end Cert.DenseBlocks

end
-- ==== Proof.Result.lean ====
/-
  The idealized kernel's result, as one function of its three arguments.

  Before the region the host flattens the input to 64 rows of 16384 and lays the bias out as one row; after it, the host
  folds the region's 64 × 16384 result back to 64 × 128 × 128. The region writes its result array one block at a time:
  the block of all 64 rows and the 2048 columns of tile `n` is written once, at the last column block of that tile,
  and by the running sum it then holds the dense layer's entries there. The eight tiles' blocks cover the array, so the
  array ends holding the dense layer of the flattened input, and the program's result is the layer.
-/
import proofs.«156693_j20624432955404_1_alg».proof.Proof.Tiles
import proofs.«156693_j20624432955404_1_alg».proof.Proof.Layer
import Idealize.ShloMosaic.Lib.Pipeline.Value
import Idealize.ShloMosaic.Lib.ValueLayout
import Idealize.ShloMosaic.Lib.StableHlo.Run

noncomputable section

open scoped BigOperators

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen Cert.DenseBlocks Cert.KernelIdeal.Tiles

variable (m : (ℓ : Loc nD τ sig) → Buf (Elt Ideal) ℓ) (ρ : Dev nD → PrngReg)

/-- The region finds the input flattened, -/
theorem rows_eq (c : Dev nD) :
    rows m c = shapeCast S64x16384 (m ((c.tc : Thread nD τ).loc main_arg0)) shapeCasts_S64x128x128_S64x16384 := by
  show StableHlo.after hostOps0 (fun b => m (c, b)) (Proc.devRef .tc main_v0) = _
  after_results <;> rfl

/-- the weights as given, -/
theorem weights_eq (c : Dev nD) : weights m c = m ((c.tc : Thread nD τ).loc main_arg1) := V_main_arg1 m c

/-- and the bias laid out as one row. -/
theorem biasRow_eq (c : Dev nD) :
    biasRow m c = shapeCast S1x16384 (m ((c.tc : Thread nD τ).loc main_arg2)) shapeCasts_S16384_S1x16384 := by
  show StableHlo.after hostOps0 (fun b => m (c, b)) (Proc.devRef .tc main_v1) = _
  after_results <;> rfl

theorem biasRow_apply (c : Dev nD) (o : Fin 16384) :
    biasRow m c (ix2 (0 : Fin 1) o) = m ((c.tc : Thread nD τ).loc main_arg2) (ix1 o) := by
  rw [biasRow_eq]
  exact shapeCast_a_1a_apply _ _ 0 o

/-- What the region's result array is to end holding: the dense layer of the flattened input. -/
abbrev rowsOut (c : Dev nD) : FVec Ideal S64x16384 .f32 :=
  dense (rows m c) (weights m c) (m ((c.tc : Thread nD τ).loc main_arg2))

/-- What a last column block's point writes back is its block of the dense layer: all 64 rows, the 2048 columns of
    its tile. -/
theorem flushed_eq (c : Dev nD) (t : Fin cfg0.N) (hf : (cfg0.win 3).flush t = true) :
    (dats m 0 c).flushed 3 t = ((cfg0.win 3).blk t).view.read (Elt Ideal) (rowsOut m c) := by
  have h1 : t.val % 8 = 7 := (flush0_3 t).mp hf
  obtain ⟨-, -, -, -, -, -, e6, e7⟩ := where_blocks t
  have ht := point_lt t
  have key : ∀ y : S64x2048.Idx, (outsAt0 m c t.val t.isLt).1 y = rowsOut m c (((cfg0.win 3).blk t).view.emb y) := by
    intro y
    obtain ⟨b, r, rfl⟩ : ∃ (b : Fin 64) (r : Fin 2048), y = ix2 b r := ⟨y 0, y 1, eq_ix2 y⟩
    rw [out_eq m c _ (biasRow_apply m c) t h1 b r]
    refine congrArg (rowsOut m c) (funext fun a => Fin.ext ?_)
    match a with
    | ⟨0, _⟩ => show b.val = win0_3.index t (0 : Fin 2) * 64 + 1 * b.val; omega
    | ⟨1, _⟩ => show 2048 * (t.val / 8 % 8) + r.val = win0_3.index t (1 : Fin 2) * 2048 + 1 * r.val; omega
  show (cfg0.win 3).cut (grid0.coords t) ((dats m 0 c).after 3 t) = _
  rw [after0_3]
  exact funext key

/-- An entry of the result array is in point `t`'s block when each coordinate is in the block's range on its axis. -/
theorem mem_block (t : Fin cfg0.N) (i : S64x16384.Idx) :
    i ∈ ((cfg0.win 3).blk t).view.set ↔ ∀ a : Fin 2, win0_3.index t a * S64x2048.size a ≤ (i a).val ∧ (i a).val < win0_3.index t a * S64x2048.size a + S64x2048.size a := by
  show i ∈ ((View.whole main_v2).slice (win0_3.rect t)).set ↔ _
  rw [View.set_slice_whole, Rect.mem_set_unit]
  exact Iff.rfl

/-- Every entry `(b, o)` is written back: by the last column block's point of tile `o / 2048`. -/
theorem covered (i : S64x16384.Idx) :
    ∃ t : Fin cfg0.N, (cfg0.win 3).flush t = true ∧ i ∈ ((cfg0.win 3).blk t).view.set := by
  have hi0 : (i 0).val < 64 := (i 0).isLt
  have hi1 : (i 1).val < 16384 := (i 1).isLt
  let t : Fin cfg0.N := ⟨8 * ((i 1).val / 2048) + 7, lt_of_lt_of_eq (by omega : 8 * ((i 1).val / 2048) + 7 < 64) (N_0).symm⟩
  have htv : t.val = 8 * ((i 1).val / 2048) + 7 := rfl
  obtain ⟨-, -, -, -, -, -, e6, e7⟩ := where_blocks t
  refine ⟨t, (flush0_3 t).mpr (by omega), ?_⟩
  rw [mem_block]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 2048 ≤ (i 1).val ∧ (i 1).val < win0_3.index t (1 : Fin 2) * 2048 + 2048; omega

/-- So the region's result array ends holding the dense layer of the flattened input. -/
theorem region_result (c : Dev nD) : (dats m 0 c).arrAt 3 cfg0.N = rowsOut m c :=
  (dats m 0 c).arrAt_eq_of_cover 3 (rowsOut m c) (flushed_eq m c) covered

/-- The same, over the arguments as given. -/
theorem rowsOut_eq (c : Dev nD) :
    rowsOut m c = dense (shapeCast S64x16384 (m ((c.tc : Thread nD τ).loc main_arg0)) shapeCasts_S64x128x128_S64x16384) (m ((c.tc : Thread nD τ).loc main_arg1)) (m ((c.tc : Thread nD τ).loc main_arg2)) := by
  show dense (rows m c) (weights m c) (m ((c.tc : Thread nD τ).loc main_arg2)) = _
  rw [rows_eq, weights_eq]

/-- The host folds the region's result back: the program's result is the layer. -/
theorem tail_eq (c : Dev nD) :
    Pipeline.afterTail₀ cfgs (dats m) 0 (V0 m) [hostOps1] c main_v3 = layer (m ((c.tc : Thread nD τ).loc main_arg0)) (m ((c.tc : Thread nD τ).loc main_arg1)) (m ((c.tc : Thread nD τ).loc main_arg2)) := by
  have e : Pipeline.withArrays (cfgs 0).spec c (V0 m c) (fun w => (dats m 0 c).arrAt w (cfgs 0).N) (Proc.devRef .tc main_v2)
      = rowsOut m c :=
    (Pipeline.withArrays_arr spec0 launch0.win.arr_inj c _ _ 3).trans (region_result m c)
  unfold Pipeline.afterTail₀
  show StableHlo.after hostOps1 _ (Proc.devRef .tc main_v3) = _
  after_results
  funext i
  show shapeCast S64x128x128 (Pipeline.withArrays (cfgs 0).spec c (V0 m c) (fun w => (dats m 0 c).arrAt w (cfgs 0).N) (Proc.devRef .tc main_v2)) shapeCasts_S64x16384_S64x128x128 i = _
  rw [e, rowsOut_eq]
  rfl

/-- THE RUN, READ: every weakly fair execution of the idealized kernel ends with its result at the layer of its
    arguments and the arguments unchanged. -/
theorem run : θ_run defs (onTc (τ := τ) (main (F := Ideal))) ⟨m, fun _ => 0, ρ⟩ fun r => ∀ c : Dev nD,
      r.2.mem ((c.tc : Thread nD τ).loc main_v3) = layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Result

end
-- ==== Proof.ReferenceLayer.lean ====
/-
  The reference computes the layer. Its rows-by-features stage is `einsum('bi,oi->bo') + bias`: entry `(b, o)` is the
  sum over all 16384 columns `i` of `x (b, i) · w (o, i)`, plus the bias vector broadcast along the rows, read at `o`.
  That is the dense layer of the flattened input entry by entry, and the reference's first and last operations are the
  flattening and the folding back.
-/
import proofs.«156693_j20624432955404_1_alg».proof.Proof.Gen.ReferenceIdeal.Read
import proofs.«156693_j20624432955404_1_alg».proof.Proof.Layer

noncomputable section

open scoped BigOperators

namespace Cert.ReferenceIdeal.Layer

open Idealize.ShloMosaic Idealize.ShloMosaic.ValueIdx Cert.ReferenceIdeal Cert.ReferenceIdeal.Gen Cert.ReferenceIdeal.Read
open Cert.DenseBlocks

/-- The stage before the last reshape is the dense layer of the flattened input. -/
theorem rows_eq_dense (x0 : (⟨S64x128x128, .f32⟩ : BufTy).Contents (Elt Ideal)) (x1 : (⟨S16384x16384, .f32⟩ : BufTy).Contents (Elt Ideal))
    (x2 : (⟨S16384, .f32⟩ : BufTy).Contents (Elt Ideal)) :
    val_main_v4 (F := Ideal) x0 x1 x2 = dense (val_main_v0 (F := Ideal) x0) x1 x2 := by
  funext i
  have el : ∀ k : Fin 16384, lidx_main_v1 i k = ix2 (i 0) k := fun k => funext fun a => Fin.ext (by
    match a with
    | ⟨0, _⟩ => rfl
    | ⟨1, _⟩ => rfl)
  have er : ∀ k : Fin 16384, ridx_main_v1 i k = ix2 (i 1) k := fun k => funext fun a => Fin.ext (by
    match a with
    | ⟨0, _⟩ => rfl
    | ⟨1, _⟩ => rfl)
  have eb : idx_main_v2 (idx_main_v3 i) = ix1 (i 1) := funext fun a => Fin.ext (by
    match a with
    | ⟨0, _⟩ => rfl)
  rw [val_main_v4_apply, val_main_v1_apply, val_main_v3_apply, val_main_v2_apply]
  simp only [el, er, eb]
  rfl

/-- So the reference's result is the layer. -/
theorem result_eq_layer (x0 : (⟨S64x128x128, .f32⟩ : BufTy).Contents (Elt Ideal)) (x1 : (⟨S16384x16384, .f32⟩ : BufTy).Contents (Elt Ideal))
    (x2 : (⟨S16384, .f32⟩ : BufTy).Contents (Elt Ideal)) :
    val_main_v5 (F := Ideal) x0 x1 x2 = layer x0 x1 x2 := by
  unfold val_main_v5
  rw [rows_eq_dense]
  rfl

end Cert.ReferenceIdeal.Layer

end
-- ==== Proof.lean ====
/-
  A dense layer `out = x_flat · Wᵀ + b` on 64 examples of 16384 features, computed by a kernel that walks an 8 × 8
  grid — 8 tiles of 2048 output features, and for each tile 8 blocks of 2048 input columns — against the plain
  `einsum('bi,oi->bo') + bias`.

  Over the extended reals the kernel's narrowing of both operands to a shorter float format is the identity and a block
  product into a zero accumulator is the plain sum of products. For one tile the kernel clears an accumulator at the
  first column block, adds each block's product, and at the last block writes accumulator plus bias to the output; so an
  output entry is `((0 + s₀) + s₁ + … + s₇) + bias`, with `sₖ` the sum of `x · w` over column block `k`. The reference's
  entry is the one sum over all 16384 columns, plus bias. The columns are the disjoint union of the eight blocks and
  addition of extended reals is commutative and associative, so the two agree; no finiteness of the inputs is needed,
  and the precondition is never opened.

  The modules: DenseBlocks (the sum split into blocks; the layer entry by entry), Layer (flatten, dense, fold back),
  Payloads (the body's three stored values at an entry), Pieces (what one run of the body leaves, case by case), Tiles
  (where each point's blocks sit; the running sum along the points), Result (the region's array, the host reshape, the
  run), ReferenceLayer (the reference is the layer). Both frames of the kernel and the reference's run are generated
  modules; the idealization rewrote nothing, so the kernel is its own idealization.
-/
import proofs.«156693_j20624432955404_1_alg».proof.Defs
import proofs.«156693_j20624432955404_1_alg».proof.Proof.Gen.Kernel
import proofs.«156693_j20624432955404_1_alg».proof.Proof.Gen.Kernel.Skeleton
import proofs.«156693_j20624432955404_1_alg».proof.Proof.Gen.Kernel.Launch
import proofs.«156693_j20624432955404_1_alg».proof.Proof.Gen.Kernel.Points
import proofs.«156693_j20624432955404_1_alg».proof.Proof.Gen.Kernel.Frame
import proofs.«156693_j20624432955404_1_alg».proof.Proof.Gen.KernelIdeal
import proofs.«156693_j20624432955404_1_alg».proof.Proof.Gen.KernelIdeal.Skeleton
import proofs.«156693_j20624432955404_1_alg».proof.Proof.Gen.KernelIdeal.Launch
import proofs.«156693_j20624432955404_1_alg».proof.Proof.Gen.KernelIdeal.Points
import proofs.«156693_j20624432955404_1_alg».proof.Proof.Gen.KernelIdeal.Frame
import proofs.«156693_j20624432955404_1_alg».proof.Proof.Gen.ReferenceIdeal
import proofs.«156693_j20624432955404_1_alg».proof.Proof.Gen.Pre_finite_inputs
import proofs.«156693_j20624432955404_1_alg».proof.Proof.Gen.ReferenceIdeal.Run
import proofs.«156693_j20624432955404_1_alg».proof.Proof.Gen.ReferenceIdeal.Read
import proofs.«156693_j20624432955404_1_alg».proof.Proof.Result
import proofs.«156693_j20624432955404_1_alg».proof.Proof.ReferenceLayer
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is six host operations in a row: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- Over the extended reals both programs end at the layer of their (agreeing) arguments. -/
theorem algebraic : Cert.algebraic_KernelIdeal_ReferenceIdeal := by
  intro m ρ m' ρ' _ hagree
  refine ⟨fun c => Cert.DenseBlocks.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Layer.result_eq_layer, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
